-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S1200000 32) (main_arg4 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S2000x64 : Shape := ⟨2, ![2000, 64]⟩
abbrev S1200000x64 : Shape := ⟨2, ![1200000, 64]⟩
abbrev S100000x1 : Shape := ⟨2, ![100000, 1]⟩
abbrev S1x64 : Shape := ⟨2, ![1, 64]⟩
abbrev S2000x1 : Shape := ⟨2, ![2000, 1]⟩

abbrev nBuf : Space → Nat
  | .hbm => 52
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000x1, .f32⟩
  | .hbm, ⟨43, _⟩ => ⟨S1200000x64, .f32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S100000x1, .f32⟩
  | .hbm, ⟨50, _⟩ => ⟨S1x64, .f32⟩
  | .hbm, ⟨51, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x1, .f32⟩
  | .local _ .vmem, ⟨8, _⟩ => ⟨S2000x1, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S100000_S1200000x1_S1200000_n_0_0_1_wf : ScatterDims.WF S100000 S1200000x1 S1200000 [] [0] [0] 1
  dot_S2000x64_S64x64_S2000x64_1_0_0_1_n_n_wf : DotDims.WF S2000x64 S64x64 S2000x64 [1] [0] [0] [1] [] []
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000x1, .f32⟩
  | .hbm, ⟨43, _⟩ => ⟨S1200000x64, .f32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.RowProduct.lean ====
/-
  The first kernel region, read as a value at the exact (extended-real) instance.

  The region walks the 100000 rows of `x` in 50 blocks of 2000 rows; at block `t` its body loads rows
  `2000·t … 2000·t + 1999` of `x` and the whole 64 × 64 matrix `w`, narrows both to bf16 (the identity on exact
  values), multiplies them into a zero accumulator, and stores the 2000 × 64 product, which is written back to rows
  `2000·t …` of the result. An entry `(r, q)` of the product at block `t` is `∑ k, x (2000·t + r, k) · w (k, q)`,
  which depends on the block only through the row `2000·t + r` it lands on: every block is the restriction of ONE
  function of the two arrays, `rowsTimes x w (p, q) = ∑ k, x (p, k) · w (k, q)`, and the 50 blocks tile the result,
  so the result array ends holding `rowsTimes x w`.
-/
import proofs.«141355_j1065151889944_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RowProduct

open Cert.KernelIdeal Cert.KernelIdeal.Gen
open Idealize.ShloMosaic Idealize.ShloMosaic.TcCoe Idealize.SL.Sem
open Idealize.ShloMosaic.ValueIdx

/-! ## The function the region computes -/

/-- Row `p` of `x` against column `q` of `w`: the exact sum of the 64 products. -/
def rowCol (x : FVec Ideal S100000x64 .f32) (w : FVec Ideal S64x64 .f32) (p : Fin 100000) (q : Fin 64) : EReal :=
  ∑ k : Fin 64, x (ix2 p k) * w (ix2 k q)

/-- The whole product `x · w`, entry by entry. -/
def rowsTimes (x : FVec Ideal S100000x64 .f32) (w : FVec Ideal S64x64 .f32) : FVec Ideal S100000x64 .f32 :=
  fun i => rowCol x w ⟨(i 0).val, (i 0).isLt⟩ ⟨(i 1).val, (i 1).isLt⟩

/-! ## One block's product at an entry -/

/-- The left operand's index at output entry `i` and contraction index `s`: row `i 0` … -/
theorem lhs_axis0 (i : S2000x64.Idx) (s : dot_S2000x64_S64x64_S2000x64_1_0_0_1_n_n.contr.Idx) :
    (dot_S2000x64_S64x64_S2000x64_1_0_0_1_n_n.lhsIdx i s 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … column the contraction index; -/
theorem lhs_axis1 (i : S2000x64.Idx) (s : dot_S2000x64_S64x64_S2000x64_1_0_0_1_n_n.contr.Idx) :
    (dot_S2000x64_S64x64_S2000x64_1_0_0_1_n_n.lhsIdx i s 1).val = (s ⟨0, by decide⟩).val :=
  dot_S2000x64_S64x64_S2000x64_1_0_0_1_n_n.lhsIdx_val_of_single rfl i s
/-- the right operand's: row the contraction index … -/
theorem rhs_axis0 (i : S2000x64.Idx) (s : dot_S2000x64_S64x64_S2000x64_1_0_0_1_n_n.contr.Idx) :
    (dot_S2000x64_S64x64_S2000x64_1_0_0_1_n_n.rhsIdx i s 0).val = (s ⟨0, by decide⟩).val :=
  dot_S2000x64_S64x64_S2000x64_1_0_0_1_n_n.rhsIdx_val_of_single rfl i s
/-- … column `i 1`. -/
theorem rhs_axis1 (i : S2000x64.Idx) (s : dot_S2000x64_S64x64_S2000x64_1_0_0_1_n_n.contr.Idx) :
    (dot_S2000x64_S64x64_S2000x64_1_0_0_1_n_n.rhsIdx i s 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's stored value at entry `(r, q)` of its block: the narrowing to bf16 is the identity on exact values and
    the accumulator is zero, so it is the sum over `k` of the loaded block's `(r, k)` times the matrix's `(k, q)`. -/
theorem blockProduct_apply (x0 : Vec Ideal S2000x64 .f32) (x1 : Vec Ideal S64x64 .f32) (j : S2000x64.Idx) :
    k0_pay1 x0 x1 j
      = ∑ k : Fin 64, x0 (ix2 ⟨(j 0).val, (j 0).isLt⟩ k) * x1 (ix2 k ⟨(j 1).val, (j 1).isLt⟩) := by
  unfold k0_pay1
  refine (Ideal.matmul_constant_zero_apply dot_S2000x64_S64x64_S2000x64_1_0_0_1_n_n none _ _ j).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx j ((contrEquiv1 dot_S2000x64_S64x64_S2000x64_1_0_0_1_n_n 64 rfl rfl).symm k) = ix2 ⟨(j 0).val, (j 0).isLt⟩ k := funext fun a => Fin.ext (by
    match a with
    | ⟨0, _⟩ => exact lhs_axis0 _ _
    | ⟨1, _⟩ => exact (lhs_axis1 _ _).trans hk)
  have er : dot_S2000x64_S64x64_S2000x64_1_0_0_1_n_n.rhsIdx j ((contrEquiv1 dot_S2000x64_S64x64_S2000x64_1_0_0_1_n_n 64 rfl rfl).symm k) = ix2 k ⟨(j 1).val, (j 1).isLt⟩ := funext fun a => Fin.ext (by
    match a with
    | ⟨0, _⟩ => exact (rhs_axis0 _ _).trans hk
    | ⟨1, _⟩ => exact rhs_axis1 _ _)
  rw [el, er]
  rfl

/-! ## From the blocks to the array -/

section Region

variable (V : (c : Dev nD) → (b : Ref sig .tc) → Buf (Elt Ideal) ((c : Thread nD τ).loc b))

/-- The two arrays the region reads, as it finds them. -/
abbrev xOf (c : Dev nD) : FVec Ideal S100000x64 .f32 := V c main_arg0
abbrev wOf (c : Dev nD) : FVec Ideal S64x64 .f32 := V c main_arg1

theorem zeroOffsets : (![0, 0] : Fin 2 → Nat) = fun _ => 0 := funext fun a => by fin_cases a <;> rfl

/-- The index maps over the 50 grid points: the row block of `x` is the result's, which is the point itself; every
    column block is the only one; the matrix is always its one block. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `rowsTimes` of the two arrays. -/
theorem flushed_eq (c : Dev nD) (t : Fin cfg0.N) :
    (dat0 V c).flushed 2 t = ((cfg0.win 2).blk t).view.read (Elt Ideal) (rowsTimes (xOf V c) (wOf V c)) := by
  show (cfg0.win 2).cut (grid0.coords t) ((dat0 V c).after 2 t) = _
  rw [after0_2]
  unfold out0_2
  rw [View.canon_unit_zero zeroOffsets]
  simp only [View.ld_unit_zero (S := S2000x64) zeroOffsets, View.ld_unit_zero (S := S64x64) zeroOffsets]
  obtain ⟨e0, e1, e2, e3, e4, e5⟩ := blockIndices t
  funext j
  refine (blockProduct_apply (iblk0 V c 0 t) (iblk0 V c 1 t) j).trans ?_
  show _ = rowCol (xOf V c) (wOf V c) _ _
  unfold rowCol
  refine Finset.sum_congr rfl fun k _ => ?_
  have hj0 : (j 0).val < 2000 := (j 0).isLt
  have hj1 : (j 1).val < 64 := (j 1).isLt
  have hx : iblk0 V c 0 t (ix2 ⟨(j 0).val, (j 0).isLt⟩ k)
      = xOf V c (ix2 ⟨(((cfg0.win 2).blk t).view.emb j 0).val, (((cfg0.win 2).blk t).view.emb j 0).isLt⟩ k) := by
    show xOf V c (((cfg0.win 0).blk t).view.emb (ix2 ⟨(j 0).val, (j 0).isLt⟩ k)) = _
    refine congrArg (xOf V c) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  have hw : iblk0 V c 1 t (ix2 k ⟨(j 1).val, (j 1).isLt⟩)
      = wOf V c (ix2 k ⟨(((cfg0.win 2).blk t).view.emb j 1).val, (((cfg0.win 2).blk t).view.emb j 1).isLt⟩) := by
    show wOf V c (((cfg0.win 1).blk t).view.emb (ix2 k ⟨(j 1).val, (j 1).isLt⟩)) = _
    refine congrArg (wOf V c) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hx, hw]

/-- An index of the result is in point `t`'s block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v13).slice (win0_2.rect t)).set ↔ _
  rw [View.set_slice_whole, Rect.mem_set_unit]
  exact Iff.rfl

/-- Row `r` of the result lies in the block of point `r / 2000`: the 50 blocks tile the array. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by show _ < grid0.N; rw [N_0]; omega
  refine ⟨⟨(i 0).val / 2000, hN⟩, flush0_2 _, ?_⟩
  obtain ⟨e0, e1, e2, e3, e4, e5⟩ := blockIndices ⟨(i 0).val / 2000, hN⟩
  have e4' : win0_2.index ⟨(i 0).val / 2000, hN⟩ (0 : Fin 2) = (i 0).val / 2000 := e4
  rw [mem_block]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 64 ≤ (i 1).val ∧ (i 1).val < win0_2.index ⟨(i 0).val / 2000, hN⟩ (1 : Fin 2) * 64 + 64; omega

/-- The result array after the region: the whole product of the two arrays as the region found them. -/
theorem final (c : Dev nD) : (dat0 V c).arrAt 2 cfg0.N = rowsTimes (xOf V c) (wOf V c) :=
  (dat0 V c).arrAt_eq_of_cover 2 (rowsTimes (xOf V c) (wOf V c)) (fun t _ => flushed_eq V c t) (covered)

end Region

end Cert.KernelIdeal.RowProduct

end
-- ==== Proof.ScaleShift.lean ====
/-
  The second kernel region, read as a value at the exact (extended-real) instance.

  The region walks the 100000 rows of the aggregated array `a` in 50 blocks of 2000 rows. At block `t` its body loads
  rows `2000·t …` of `a` (2000 × 64), the same rows of the column `n` (2000 × 1), and the one row `b` (1 × 64), and
  stores `max (a · n + b, 0)` with `n` repeated along the row and `b` down the column. Entry `(r, q)` of the block is
  `max (a (2000·t + r, q) · n (2000·t + r, 0) + b (0, q), 0)`: again one function of the arrays' entries at the place
  the entry lands, so the 50 blocks, which tile the result, leave it holding
  `scaleShiftClamp a n b (p, q) = max (a (p, q) · n (p, 0) + b (0, q), 0)`.
-/
import proofs.«141355_j1065151889944_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ScaleShift

open Cert.KernelIdeal Cert.KernelIdeal.Gen
open Idealize.ShloMosaic Idealize.ShloMosaic.TcCoe Idealize.SL.Sem
open Idealize.ShloMosaic.ValueIdx

/-! ## The function the region computes -/

/-- `max (a · n + b, 0)` entry by entry, the column `n` read at the entry's row and the row `b` at its column. -/
def scaleShiftClamp (a : FVec Ideal S100000x64 .f32) (n : FVec Ideal S100000x1 .f32) (b : FVec Ideal S1x64 .f32) :
    FVec Ideal S100000x64 .f32 :=
  fun i => max (a i * n (ix2 ⟨(i 0).val, (i 0).isLt⟩ 0) + b (ix2 0 ⟨(i 1).val, (i 1).isLt⟩)) 0

/-! ## One block's value at an entry -/

/-- A 2000 × 1 column repeated along the rows, read at an entry: the column at the entry's row. -/
theorem column_apply (x : FVec Ideal S2000x1 .f32) (h : S2000x1.Broadcasts S2000x64) (j : S2000x64.Idx) :
    broadcastTo S2000x64 x h j = x (ix2 ⟨(j 0).val, (j 0).isLt⟩ 0) :=
  broadcastTo_apply x h j (ix2 ⟨(j 0).val, (j 0).isLt⟩ 0) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])

/-- A 1 × 64 row repeated down the columns, read at an entry: the row at the entry's column. -/
theorem row_apply (x : FVec Ideal S1x64 .f32) (h : S1x64.Broadcasts S2000x64) (j : S2000x64.Idx) :
    broadcastTo S2000x64 x h j = x (ix2 0 ⟨(j 1).val, (j 1).isLt⟩) :=
  broadcastTo_apply x h j (ix2 0 ⟨(j 1).val, (j 1).isLt⟩) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The body's stored value at entry `j` of its block. The three shape casts are between equal shapes; the zero the
    maximum is taken with is the exact zero. -/
theorem blockValue_apply (x0 : Vec Ideal S2000x64 .f32) (x1 : Vec Ideal S2000x1 .f32) (x2 : Vec Ideal S1x64 .f32) (j : S2000x64.Idx) :
    k1_pay1 x0 x1 x2 j
      = max (x0 j * x1 (ix2 ⟨(j 0).val, (j 0).isLt⟩ 0) + x2 (ix2 0 ⟨(j 1).val, (j 1).isLt⟩)) 0 := by
  unfold k1_pay1
  simp only [shapeCast_self]
  show max (x0 j * broadcastTo S2000x64 x1 _ j + broadcastTo S2000x64 x2 _ j) (Ideal.ofBits .f32 0x00000000#32) = _
  rw [column_apply, row_apply, Ideal.ofBits_zero_f32]

/-! ## From the blocks to the array -/

section Region

variable (V : (c : Dev nD) → (b : Ref sig .tc) → Buf (Elt Ideal) ((c : Thread nD τ).loc b))

/-- The three arrays the region reads, as it finds them. -/
abbrev aOf (c : Dev nD) : FVec Ideal S100000x64 .f32 := V c main_v33
abbrev nOf (c : Dev nD) : FVec Ideal S100000x1 .f32 := V c main_v34
abbrev bOf (c : Dev nD) : FVec Ideal S1x64 .f32 := V c main_v35

theorem zeroOffsets : (![0, 0] : Fin 2 → Nat) = fun _ => 0 := funext fun a => by fin_cases a <;> rfl

/-- The index maps over the 50 grid points: `a`'s and `n`'s row block is the result's, which is the point itself;
    every column block is the only one; `b` is always its one block. -/
theorem blockIndices : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of `scaleShiftClamp` of the three arrays. -/
theorem flushed_eq (c : Dev nD) (t : Fin cfg1.N) :
    (dat1 V c).flushed 3 t = ((cfg1.win 3).blk t).view.read (Elt Ideal) (scaleShiftClamp (aOf V c) (nOf V c) (bOf V c)) := by
  show (cfg1.win 3).cut (grid1.coords t) ((dat1 V c).after 3 t) = _
  rw [after1_3]
  unfold out1_3
  rw [View.canon_unit_zero zeroOffsets]
  simp only [View.ld_unit_zero (S := S2000x64) zeroOffsets, View.ld_unit_zero (S := S2000x1) zeroOffsets, View.ld_unit_zero (S := S1x64) zeroOffsets]
  obtain ⟨e0, e1, e2, e3, e4, e5, e6, e7⟩ := blockIndices t
  funext j
  refine (blockValue_apply (iblk1 V c 0 t) (iblk1 V c 1 t) (iblk1 V c 2 t) j).trans ?_
  have hj0 : (j 0).val < 2000 := (j 0).isLt
  have hj1 : (j 1).val < 64 := (j 1).isLt
  have ha : iblk1 V c 0 t j = aOf V c (((cfg1.win 3).blk t).view.emb j) := by
    show aOf V c (((cfg1.win 0).blk t).view.emb j) = _
    refine congrArg (aOf V c) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * (j 1).val = win1_3.index t (1 : Fin 2) * 64 + 1 * (j 1).val; omega
  have hn : iblk1 V c 1 t (ix2 ⟨(j 0).val, (j 0).isLt⟩ 0)
      = nOf V c (ix2 ⟨(((cfg1.win 3).blk t).view.emb j 0).val, (((cfg1.win 3).blk t).view.emb j 0).isLt⟩ 0) := by
    show nOf V c (((cfg1.win 1).blk t).view.emb (ix2 ⟨(j 0).val, (j 0).isLt⟩ 0)) = _
    refine congrArg (nOf V c) (funext fun a => Fin.ext ?_)
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 1 + 1 * 0 = 0; omega
  have hb : iblk1 V c 2 t (ix2 0 ⟨(j 1).val, (j 1).isLt⟩)
      = bOf V c (ix2 0 ⟨(((cfg1.win 3).blk t).view.emb j 1).val, (((cfg1.win 3).blk t).view.emb j 1).isLt⟩) := by
    show bOf V c (((cfg1.win 2).blk t).view.emb (ix2 0 ⟨(j 1).val, (j 1).isLt⟩)) = _
    refine congrArg (bOf V c) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [ha, hn, hb]
  rfl

/-- An index of the result is in point `t`'s block iff each coordinate is in the block's range on its axis. -/
theorem mem_block (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v36).slice (win1_3.rect t)).set ↔ _
  rw [View.set_slice_whole, Rect.mem_set_unit]
  exact Iff.rfl

/-- Row `r` of the result lies in the block of point `r / 2000`: the 50 blocks tile the array. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 2000 < cfg1.N := by show _ < grid1.N; rw [N_1]; omega
  refine ⟨⟨(i 0).val / 2000, hN⟩, flush1_3 _, ?_⟩
  obtain ⟨e0, e1, e2, e3, e4, e5, e6, e7⟩ := blockIndices ⟨(i 0).val / 2000, hN⟩
  have e6' : win1_3.index ⟨(i 0).val / 2000, hN⟩ (0 : Fin 2) = (i 0).val / 2000 := e6
  rw [mem_block]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000; omega
  | ⟨1, _⟩ => show win1_3.index ⟨(i 0).val / 2000, hN⟩ (1 : Fin 2) * 64 ≤ (i 1).val ∧ (i 1).val < win1_3.index ⟨(i 0).val / 2000, hN⟩ (1 : Fin 2) * 64 + 64; omega

/-- The result array after the region: `scaleShiftClamp` of the three arrays as the region found them. -/
theorem final (c : Dev nD) : (dat1 V c).arrAt 3 cfg1.N = scaleShiftClamp (aOf V c) (nOf V c) (bOf V c) :=
  (dat1 V c).arrAt_eq_of_cover 3 (scaleShiftClamp (aOf V c) (nOf V c) (bOf V c)) (fun t _ => flushed_eq V c t) (covered)

end Region

end Cert.KernelIdeal.ScaleShift

end
-- ==== Proof.ResultValue.lean ====
/-
  The kernel program's result as a function of its arguments, at the exact (extended-real) instance.

  @main is four stretches: host operations (the two degree counts and their inverse square roots `ns`, `nd`), the
  first kernel region (`h = x · w`, RowProduct), host operations (each edge's message `h[src] · ns[src]` gathered and
  summed into its destination row, `agg`; `nd` and the bias `b` reshaped to a column and a row), and the second kernel
  region (`max (agg · nd + b, 0)`, ScaleShift). The buffer contents at each boundary are a fold through these
  stretches; reading the result buffer back through the fold, stretch by stretch, gives

      result (p, q) = max (agg (p, q) · nd p + b q, 0),   agg = scatter-add over dst of (h[src] · ns[src]),   h = x · w.

  The reference computes the same three stages on the host with the same gather and scatter-add applied to `h`
  (there a `dot_general`, here the row-blocked kernel product: one sum over `k` of `x (p, k) · w (k, q)` either
  way), so the result is stated as the reference's own last stage, as a function of THIS program's arguments. The
  shared gather / scatter-add chain is never opened: it is the same function on both sides, applied to equal arrays.
-/
import proofs.«141355_j1065151889944_1_alg».proof.Proof.RowProduct
import proofs.«141355_j1065151889944_1_alg».proof.Proof.ScaleShift
import proofs.«141355_j1065151889944_1_alg».proof.Proof.Gen.ReferenceIdeal.Read
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem
open Idealize.ShloMosaic.ValueIdx Idealize.ShloMosaic.StableHlo

/-! ## The row-blocked product is the host's `dot_general` -/

/-- Both are, at entry `(p, q)`, the sum over `k` of `x (p, k) · w (k, q)`. -/
theorem rowsTimes_eq_dot (x : FVec Ideal S100000x64 .f32) (w : FVec Ideal S64x64 .f32) :
    RowProduct.rowsTimes x w = Cert.ReferenceIdeal.Read.val_main_v13 (F := Ideal) x w := by
  funext i
  rw [Cert.ReferenceIdeal.Read.val_main_v13_apply]
  unfold RowProduct.rowsTimes RowProduct.rowCol
  refine Finset.sum_congr rfl fun k _ => ?_
  have el : (ix2 ⟨(i 0).val, (i 0).isLt⟩ k : S100000x64.Idx) = Cert.ReferenceIdeal.Read.lidx_main_v13 i k :=
    funext fun a => Fin.ext (by match a with | ⟨0, _⟩ => rfl | ⟨1, _⟩ => rfl)
  have er : (ix2 k ⟨(i 1).val, (i 1).isLt⟩ : S64x64.Idx) = Cert.ReferenceIdeal.Read.ridx_main_v13 i k :=
    funext fun a => Fin.ext (by match a with | ⟨0, _⟩ => rfl | ⟨1, _⟩ => rfl)
  rw [el, er]

/-! ## A vector reshaped to a column, and to a row, read at an entry -/

theorem column_of_vector (v : FVec Ideal S100000 .f32) (h : S100000.ShapeCasts S100000x1) (p : Fin 100000) :
    shapeCast S100000x1 v h (ix2 p 0) = v (ix1 p) :=
  shapeCast_apply v h (ix2 p 0) (ix1 p) (by
    rw [Shape.rowMajor_val_one, Shape.rowMajor_val_two]; show p.val = p.val * 1 + 0; omega)

theorem row_of_vector (v : FVec Ideal S64 .f32) (h : S64.ShapeCasts S1x64) (q : Fin 64) :
    shapeCast S1x64 v h (ix2 0 q) = v (ix1 q) :=
  shapeCast_apply v h (ix2 0 q) (ix1 q) (by
    rw [Shape.rowMajor_val_one, Shape.rowMajor_val_two]; show q.val = 0 * 64 + q.val; omega)

/-! ## The second host stretch, over any contents it starts from -/

set_option maxHeartbeats 2000000 in
/-- From contents holding the product `h`, the two index arrays and `ns`, the second host stretch leaves in its
    scatter-add's buffer the reference's aggregation stage: the same operations, operation by operation. -/
theorem stretch_agg (Wv : Valuation τ sig (Elt Ideal))
    (x : FVec Ideal S100000x64 .f32) (w : FVec Ideal S64x64 .f32) (src dst : IVec S1200000 32)
    (eh : Wv (Proc.devRef .tc main_v13) = Cert.ReferenceIdeal.Read.val_main_v13 (F := Ideal) x w)
    (es : Wv (Proc.devRef .tc main_arg3) = src) (ed : Wv (Proc.devRef .tc main_arg4) = dst)
    (en : Wv (Proc.devRef .tc main_v9) = Cert.ReferenceIdeal.Read.val_main_v9 (F := Ideal) src) :
    StableHlo.after hostOps1 Wv (Proc.devRef .tc main_v33) = Cert.ReferenceIdeal.Read.val_main_v33 (F := Ideal) x w src dst := by
  after_results_simp
  rw [eh, es, ed, en]
  rfl

/-! ## The boundaries' contents, read back to the arguments -/

section Run

variable (m : (ℓ : Loc nD τ sig) → Buf (Elt Ideal) ℓ) (ρ : Dev nD → PrngReg)

/-- The five arguments as launched. -/
abbrev argX (c : Dev nD) : FVec Ideal S100000x64 .f32 := m ((c : Thread nD τ).loc main_arg0)
abbrev argW (c : Dev nD) : FVec Ideal S64x64 .f32 := m ((c : Thread nD τ).loc main_arg1)
abbrev argB (c : Dev nD) : FVec Ideal S64 .f32 := m ((c : Thread nD τ).loc main_arg2)
abbrev argSrc (c : Dev nD) : IVec S1200000 32 := m ((c : Thread nD τ).loc main_arg3)
abbrev argDst (c : Dev nD) : IVec S1200000 32 := m ((c : Thread nD τ).loc main_arg4)

/-- No host operation before the first region writes an argument. -/
theorem entry0_x (c : Dev nD) : V1 m ρ c main_arg0 = argX m c := by
  show StableHlo.after hostOps0 (W0 m ρ c) (Proc.devRef .tc main_arg0) = _
  after_results
theorem entry0_w (c : Dev nD) : V1 m ρ c main_arg1 = argW m c := by
  show StableHlo.after hostOps0 (W0 m ρ c) (Proc.devRef .tc main_arg1) = _
  after_results

/-- After the first region its result buffer holds the product of the two arguments: the reference's `dot_general`. -/
theorem exit0_h (c : Dev nD) :
    W2 m ρ c (Proc.devRef .tc main_v13) = Cert.ReferenceIdeal.Read.val_main_v13 (F := Ideal) (argX m c) (argW m c) := by
  refine (W2_arr m ρ c 2).trans ((RowProduct.final (V1 m ρ) c).trans ?_)
  show RowProduct.rowsTimes (V1 m ρ c main_arg0) (V1 m ρ c main_arg1) = _
  rw [entry0_x, entry0_w]
  exact rowsTimes_eq_dot _ _

/-- The first region leaves every buffer that is none of its three arrays as the first host stretch left it. -/
theorem exit0_src (c : Dev nD) : W2 m ρ c (Proc.devRef .tc main_arg3) = argSrc m c := by
  refine (W2_of_ne m ρ c main_arg3 (by decide)).trans ?_
  show StableHlo.after hostOps0 (W0 m ρ c) (Proc.devRef .tc main_arg3) = _
  after_results
theorem exit0_dst (c : Dev nD) : W2 m ρ c (Proc.devRef .tc main_arg4) = argDst m c := by
  refine (W2_of_ne m ρ c main_arg4 (by decide)).trans ?_
  show StableHlo.after hostOps0 (W0 m ρ c) (Proc.devRef .tc main_arg4) = _
  after_results
theorem exit0_b (c : Dev nD) : W2 m ρ c (Proc.devRef .tc main_arg2) = argB m c := by
  refine (W2_of_ne m ρ c main_arg2 (by decide)).trans ?_
  show StableHlo.after hostOps0 (W0 m ρ c) (Proc.devRef .tc main_arg2) = _
  after_results
/-- The source-side normaliser `ns`, as the reference's stage of `src`. -/
theorem exit0_ns (c : Dev nD) : W2 m ρ c (Proc.devRef .tc main_v9) = Cert.ReferenceIdeal.Read.val_main_v9 (F := Ideal) (argSrc m c) := by
  refine (W2_of_ne m ρ c main_v9 (by decide)).trans ?_
  show StableHlo.after hostOps0 (W0 m ρ c) (Proc.devRef .tc main_v9) = _
  after_results
  rfl
/-- The destination-side normaliser `nd`, as the reference's stage of `dst`. -/
theorem exit0_nd (c : Dev nD) : W2 m ρ c (Proc.devRef .tc main_v12) = Cert.ReferenceIdeal.Read.val_main_v12 (F := Ideal) (argDst m c) := by
  refine (W2_of_ne m ρ c main_v12 (by decide)).trans ?_
  show StableHlo.after hostOps0 (W0 m ρ c) (Proc.devRef .tc main_v12) = _
  after_results
  rfl

/-- The aggregated messages the second region reads: the reference's gather / scatter-add stage, of the same product. -/
theorem entry1_agg (c : Dev nD) :
    V3 m ρ c main_v33 = Cert.ReferenceIdeal.Read.val_main_v33 (F := Ideal) (argX m c) (argW m c) (argSrc m c) (argDst m c) := by
  exact stretch_agg (W2 m ρ c) (argX m c) (argW m c) (argSrc m c) (argDst m c)
    (exit0_h m ρ c) (exit0_src m ρ c) (exit0_dst m ρ c) (exit0_ns m ρ c)

/-- The column the second region reads is `nd` reshaped: at row `p` it is `nd p`. -/
theorem entry1_nd (c : Dev nD) (p : Fin 100000) :
    ScaleShift.nOf (V3 m ρ) c (ix2 p 0) = Cert.ReferenceIdeal.Read.val_main_v12 (F := Ideal) (argDst m c) (ix1 p) := by
  show StableHlo.after hostOps1 (W2 m ρ c) (Proc.devRef .tc main_v34) (ix2 p 0) = _
  after_results
  rw [exit0_nd]
  exact column_of_vector _ _ p

/-- The row the second region reads is the bias reshaped: at column `q` it is `b q`. -/
theorem entry1_b (c : Dev nD) (q : Fin 64) :
    ScaleShift.bOf (V3 m ρ) c (ix2 0 q) = argB m c (ix1 q) := by
  show StableHlo.after hostOps1 (W2 m ρ c) (Proc.devRef .tc main_v35) (ix2 0 q) = _
  after_results
  rw [exit0_b]
  exact row_of_vector _ _ q

/-- THE RESULT: what the last boundary's contents hold at the result buffer is the reference's last stage, as a
    function of this program's five arguments. -/
theorem result_eq (c : Dev nD) :
    W4 m ρ c (Proc.devRef .tc main_v36)
      = Cert.ReferenceIdeal.Read.val_main_v40 (F := Ideal) (argX m c) (argW m c) (argB m c) (argSrc m c) (argDst m c) := by
  refine (W4_arr m ρ c 3).trans ((ScaleShift.final (V3 m ρ) c).trans ?_)
  funext i
  rw [Cert.ReferenceIdeal.Read.val_main_v40_apply, Cert.ReferenceIdeal.Read.val_main_v39_apply, Cert.ReferenceIdeal.Read.val_main_v36_apply, Cert.ReferenceIdeal.Read.val_main_v35_apply,
    Cert.ReferenceIdeal.Read.val_main_v34_apply, Cert.ReferenceIdeal.Read.val_main_v38_apply, Cert.ReferenceIdeal.Read.val_main_v37_apply, Cert.ReferenceIdeal.Read.val_main_call0_v0_apply,
    Cert.ReferenceIdeal.Read.val_main_call0_cst_apply]
  unfold ScaleShift.scaleShiftClamp
  show max (ScaleShift.aOf (V3 m ρ) c i * ScaleShift.nOf (V3 m ρ) c (ix2 ⟨(i 0).val, (i 0).isLt⟩ 0)
      + ScaleShift.bOf (V3 m ρ) c (ix2 0 ⟨(i 1).val, (i 1).isLt⟩)) 0 = _
  rw [entry1_nd, entry1_b, show ScaleShift.aOf (V3 m ρ) c = _ from entry1_agg m ρ c]
  show _ = max (_ * Cert.ReferenceIdeal.Read.val_main_v12 (F := Ideal) (argDst m c) (Cert.ReferenceIdeal.Read.idx_main_v34 (Cert.ReferenceIdeal.Read.idx_main_v35 i))
      + argB m c (Cert.ReferenceIdeal.Read.idx_main_v37 (Cert.ReferenceIdeal.Read.idx_main_v38 i))) (Ideal.ofBits .f32 0x00000000#32)
  rw [Ideal.ofBits_zero_f32]
  have e1 : (ix1 ⟨(i 0).val, (i 0).isLt⟩ : S100000.Idx) = Cert.ReferenceIdeal.Read.idx_main_v34 (Cert.ReferenceIdeal.Read.idx_main_v35 i) :=
    funext fun a => Fin.ext (by match a with | ⟨0, _⟩ => rfl)
  have e2 : (ix1 ⟨(i 1).val, (i 1).isLt⟩ : S64.Idx) = Cert.ReferenceIdeal.Read.idx_main_v37 (Cert.ReferenceIdeal.Read.idx_main_v38 i) :=
    funext fun a => Fin.ext (by match a with | ⟨0, _⟩ => rfl)
  rw [e1, e2]

end Run

end Cert.KernelIdeal.ResultValue

end
-- ==== Proof.lean ====
/-
  The proof of `Cert.Claim`: a graph-convolution layer, `relu (D_in^(-1/2) · A · D_out^(-1/2) · (x · w) + b)`, computed by
  a program with two row-blocked kernels against the same layer written with host operations only.

  Both programs count each node's out- and in-degree over the 1200000 edges (a scatter-add of ones), clamp the counts
  below at one and take inverse square roots (`ns`, `nd`); both gather, per edge, the source node's row of
  `h = x · w` scaled by `ns` at the source and scatter-add it into the destination node's row (`agg`); both end with
  `max (agg · nd + b, 0)`. They differ in two places only. The product `h`: the kernel program forms it 2000 rows at
  a time, narrowing both factors to bf16 first, where the reference has one `dot_general` — at exact values the
  narrowing is the identity and either is, entry by entry, the sum over `k` of `x (p, k) · w (k, q)` (RowProduct,
  ResultValue.rowsTimes_eq_dot). The last stage: the kernel program forms it 2000 rows at a time from `nd` as a column
  and `b` as a row, where the reference broadcasts both to full size first — entry by entry the same
  `max (agg (p, q) · nd p + b q, 0)` (ScaleShift, ResultValue.result_eq). Everything between — the degree counts, the
  gather, the scatter-add — is the same function on both sides and is carried unopened. No law of the extended reals
  beyond reading sums and products entry by entry is used, so the finiteness of the inputs is never opened.

  The three frames: the two kernel programs' by the generated frame certificates; the reference's by its generated
  run. `preserves` has no ledger entry. `algebraic`: the kernel program's run with its result named (KernelRun) and
  read back to the arguments (ResultValue), beside the reference's generated run.
-/
import proofs.«141355_j1065151889944_1_alg».proof.Defs
import proofs.«141355_j1065151889944_1_alg».proof.Proof.Gen.Kernel
import proofs.«141355_j1065151889944_1_alg».proof.Proof.Gen.Kernel.Skeleton
import proofs.«141355_j1065151889944_1_alg».proof.Proof.Gen.Kernel.Launch
import proofs.«141355_j1065151889944_1_alg».proof.Proof.Gen.Kernel.Points
import proofs.«141355_j1065151889944_1_alg».proof.Proof.Gen.Kernel.Frame
import proofs.«141355_j1065151889944_1_alg».proof.Proof.Gen.KernelIdeal
import proofs.«141355_j1065151889944_1_alg».proof.Proof.Gen.KernelIdeal.Skeleton
import proofs.«141355_j1065151889944_1_alg».proof.Proof.Gen.KernelIdeal.Launch
import proofs.«141355_j1065151889944_1_alg».proof.Proof.Gen.KernelIdeal.Points
import proofs.«141355_j1065151889944_1_alg».proof.Proof.Gen.KernelIdeal.Frame
import proofs.«141355_j1065151889944_1_alg».proof.Proof.Gen.ReferenceIdeal
import proofs.«141355_j1065151889944_1_alg».proof.Proof.Gen.Pre_finite_inputs
import proofs.«141355_j1065151889944_1_alg».proof.Proof.Gen.ReferenceIdeal.Run
import proofs.«141355_j1065151889944_1_alg».proof.Proof.Gen.ReferenceIdeal.Read
import proofs.«141355_j1065151889944_1_alg».proof.Proof.KernelRun
import proofs.«141355_j1065151889944_1_alg».proof.Proof.ResultValue
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its reading at exact values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the layer's value of those arguments: the
    kernel program's result read back through its four stretches is the reference's last stage of the arguments, and
    the reference's run ends at that stage by definition. -/
theorem algebraic : Cert.algebraic_KernelIdeal_ReferenceIdeal := by
  intro m ρ m' ρ' _ hagree
  refine ⟨fun c => Cert.ReferenceIdeal.Read.val_main_v40 (F := Ideal)
      (Cert.KernelIdeal.ResultValue.argX m c) (Cert.KernelIdeal.ResultValue.argW m c) (Cert.KernelIdeal.ResultValue.argB m c)
      (Cert.KernelIdeal.ResultValue.argSrc m c) (Cert.KernelIdeal.ResultValue.argDst m c), ?_, ?_⟩
  · exact (θ_run Cert.KernelIdeal.defs _ _).mono
      (fun r h c => ⟨(h c).1.trans (Cert.KernelIdeal.ResultValue.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v40_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
